-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x133x6 : Shape := ⟨3, ![16384, 133, 6]⟩
abbrev S16384x133x3 : Shape := ⟨3, ![16384, 133, 3]⟩
abbrev S16384x133x1 : Shape := ⟨3, ![16384, 133, 1]⟩
abbrev S_ : Shape := ⟨0, ![]⟩

class Facts : Prop where
  bcast_S_S16384x133x6 : S_.BroadcastsInDim S16384x133x6 (![] : Fin 0 → Fin S16384x133x6.rank)
  reducesTo_S16384x133x6_S_d0_1_2 : S16384x133x6.ReducesTo [0, 1, 2] S_
  h_S_ : 0 < S_.numel
  bcast_S_S16384x133x3 : S_.BroadcastsInDim S16384x133x3 (![] : Fin 0 → Fin S16384x133x3.rank)
  reducesTo_S16384x133x3_S_d0_1_2 : S16384x133x3.ReducesTo [0, 1, 2] S_
  bcast_S_S16384x133x1 : S_.BroadcastsInDim S16384x133x1 (![] : Fin 0 → Fin S16384x133x1.rank)
  reducesTo_S16384x133x1_S_d0_1_2 : S16384x133x1.ReducesTo [0, 1, 2] S_

variable [Facts]

def fn {F : FTy → Type} [FloatOps F] (main_arg0 : FVec F S16384x133x6 .f32) (main_arg1 : FVec F S16384x133x3 .f32) (main_arg2 : FVec F S16384x133x1 .f32) : IVec S_ 1 :=
  let main_v0 : FVec F S16384x133x6 .f32 := Host.absf main_arg0
  let main_cst : FVec F S_ .f32 := constant S_ .f32 0x7F800000#32
  let main_v1 : FVec F S16384x133x6 .f32 := broadcastInDim S16384x133x6 ![] bcast_S_S16384x133x6 main_cst
  let main_v2 : IVec S16384x133x6 1 := cmpf .olt main_v0 main_v1
  let main_c : IVec S_ 1 := constantI S_ 1 1#1
  let main_v3 : IVec S_ 1 := (fun x v => Host.reduce IntOp.andi x v reducesTo_S16384x133x6_S_d0_1_2 h_S_) main_v2 main_c
  let main_v4 : FVec F S16384x133x3 .f32 := Host.absf main_arg1
  let main_cst_0 : FVec F S_ .f32 := constant S_ .f32 0x7F800000#32
  let main_v5 : FVec F S16384x133x3 .f32 := broadcastInDim S16384x133x3 ![] bcast_S_S16384x133x3 main_cst_0
  let main_v6 : IVec S16384x133x3 1 := cmpf .olt main_v4 main_v5
  let main_c_1 : IVec S_ 1 := constantI S_ 1 1#1
  let main_v7 : IVec S_ 1 := (fun x v => Host.reduce IntOp.andi x v reducesTo_S16384x133x3_S_d0_1_2 h_S_) main_v6 main_c_1
  let main_v8 : IVec S_ 1 := andi main_v3 main_v7
  let main_v9 : FVec F S16384x133x1 .f32 := Host.absf main_arg2
  let main_cst_2 : FVec F S_ .f32 := constant S_ .f32 0x7F800000#32
  let main_v10 : FVec F S16384x133x1 .f32 := broadcastInDim S16384x133x1 ![] bcast_S_S16384x133x1 main_cst_2
  let main_v11 : IVec S16384x133x1 1 := cmpf .olt main_v9 main_v10
  let main_c_3 : IVec S_ 1 := constantI S_ 1 1#1
  let main_v12 : IVec S_ 1 := (fun x v => Host.reduce IntOp.andi x v reducesTo_S16384x133x1_S_d0_1_2 h_S_) main_v11 main_c_3
  let main_v13 : IVec S_ 1 := andi main_v8 main_v12
  main_v13
-- ==== Kernel.lean ====
abbrev S16384x133x6 : Shape := ⟨3, ![16384, 133, 6]⟩
abbrev S16384x133x3 : Shape := ⟨3, ![16384, 133, 3]⟩
abbrev S16384x133x1 : Shape := ⟨3, ![16384, 133, 1]⟩
abbrev S16384 : Shape := ⟨1, ![16384]⟩
abbrev S128x133x6 : Shape := ⟨3, ![128, 133, 6]⟩
abbrev S128x133x3 : Shape := ⟨3, ![128, 133, 3]⟩
abbrev S128 : Shape := ⟨1, ![128]⟩
abbrev S128x133x2 : Shape := ⟨3, ![128, 133, 2]⟩
abbrev S128x133x1 : Shape := ⟨3, ![128, 133, 1]⟩
abbrev S128x133 : Shape := ⟨2, ![128, 133]⟩

abbrev nBuf : Space → Nat
  | .hbm => 4
  | .vmem => 6
  | .smem => 0
  | _ => 0

abbrev bufTy : (tb : Table) → Fin (tcTables nBuf tb) → BufTy
  | .hbm, ⟨0, _⟩ => ⟨S16384x133x6, .f32⟩
  | .hbm, ⟨1, _⟩ => ⟨S16384x133x3, .f32⟩
  | .hbm, ⟨2, _⟩ => ⟨S16384x133x1, .f32⟩
  | .hbm, ⟨3, _⟩ => ⟨S16384, .f32⟩
  | .local _ .vmem, ⟨0, _⟩ => ⟨S128x133x6, .f32⟩
  | .local _ .vmem, ⟨1, _⟩ => ⟨S128x133x6, .f32⟩
  | .local _ .vmem, ⟨2, _⟩ => ⟨S128x133x3, .f32⟩
  | .local _ .vmem, ⟨3, _⟩ => ⟨S128x133x3, .f32⟩
  | .local _ .vmem, ⟨4, _⟩ => ⟨S128, .f32⟩
  | .local _ .vmem, ⟨5, _⟩ => ⟨S128, .f32⟩
  | _, _ => ⟨S16384x133x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x133x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x133x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x133x6_S128x133x6_0_0_0 : ∀ a, (![0, 0, 0] : Fin 3 → Nat) a + S128x133x6.size a ≤ S128x133x6.size a
  h_S128x133x6 : 0 < S128x133x6.numel
  inb_S128x133x3_S128x133x3_0_0_0 : ∀ a, (![0, 0, 0] : Fin 3 → Nat) a + S128x133x3.size a ≤ S128x133x3.size a
  h_S128x133x3 : 0 < S128x133x3.numel
  slices_S128x133x6_o0_0_0_S128x133x2 : S128x133x6.Slices ![0, 0, 0] S128x133x2
  slices_S128x133x6_o0_0_2_S128x133x1 : S128x133x6.Slices ![0, 0, 2] S128x133x1
  shapeCasts_S128x133x1_S128x133 : S128x133x1.ShapeCasts S128x133
  slices_S128x133x6_o0_0_3_S128x133x1 : S128x133x6.Slices ![0, 0, 3] S128x133x1
  slices_S128x133x6_o0_0_4_S128x133x1 : S128x133x6.Slices ![0, 0, 4] S128x133x1
  slices_S128x133x6_o0_0_5_S128x133x1 : S128x133x6.Slices ![0, 0, 5] S128x133x1
  slices_S128x133x3_o0_0_0_S128x133x2 : S128x133x3.Slices ![0, 0, 0] S128x133x2
  slices_S128x133x3_o0_0_2_S128x133x1 : S128x133x3.Slices ![0, 0, 2] S128x133x1
  natLt_1_32 : 1 < 32
  reduces_S128x133_S128 : S128x133.Reduces [1] S128
  slices_S128x133x2_o0_0_0_S128x133x1 : S128x133x2.Slices ![0, 0, 0] S128x133x1
  slices_S128x133x2_o0_0_1_S128x133x1 : S128x133x2.Slices ![0, 0, 1] S128x133x1
  inb_S128_S128_0 : ∀ a, (![0] : Fin 1 → Nat) a + S128.size a ≤ S128.size a
  h_S128 : 0 < S128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x133x6.size a ≤ S16384x133x6.size a
  hwx0_0 : ∀ i : grid0.Coords, EltTy.bits .f32 = 32 ∨ (Rect.block (s := S16384x133x6) S128x133x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x133x3.size a ≤ S16384x133x3.size a
  hwx0_1 : ∀ i : grid0.Coords, EltTy.bits .f32 = 32 ∨ (Rect.block (s := S16384x133x3) S128x133x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S16384.size a
  hwx0_2 : ∀ i : grid0.Coords, EltTy.bits .f32 = 32 ∨ (Rect.block (s := S16384) S128.size (cc0_transform_2 i) (hinb0_2 i)).WholeWords (EltTy.packing .f32)

variable [Facts₀]

abbrev win0_0 : Pipeline.Window sig grid0 :=
  Pipeline.Window.ofSpec (Memref.whole main_arg0) S128x133x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x133x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x133x6 : Shape := ⟨3, ![16384, 133, 6]⟩
abbrev S16384x133x3 : Shape := ⟨3, ![16384, 133, 3]⟩
abbrev S16384x133x1 : Shape := ⟨3, ![16384, 133, 1]⟩
abbrev S16384x133x2 : Shape := ⟨3, ![16384, 133, 2]⟩
abbrev S16384x133 : Shape := ⟨2, ![16384, 133]⟩
abbrev S_ : Shape := ⟨0, ![]⟩
abbrev S16384 : Shape := ⟨1, ![16384]⟩

abbrev nBuf : Space → Nat
  | .hbm => 63
  | .vmem => 0
  | .smem => 0
  | _ => 0

abbrev bufTy : (tb : Table) → Fin (tcTables nBuf tb) → BufTy
  | .hbm, ⟨0, _⟩ => ⟨S16384x133x6, .f32⟩
  | .hbm, ⟨1, _⟩ => ⟨S16384x133x3, .f32⟩
  | .hbm, ⟨2, _⟩ => ⟨S16384x133x1, .f32⟩
  | .hbm, ⟨3, _⟩ => ⟨S16384x133x2, .f32⟩
  | .hbm, ⟨4, _⟩ => ⟨S16384x133x1, .f32⟩
  | .hbm, ⟨5, _⟩ => ⟨S16384x133, .f32⟩
  | .hbm, ⟨6, _⟩ => ⟨S16384x133x1, .f32⟩
  | .hbm, ⟨7, _⟩ => ⟨S16384x133, .f32⟩
  | .hbm, ⟨8, _⟩ => ⟨S16384x133x1, .f32⟩
  | .hbm, ⟨9, _⟩ => ⟨S16384x133, .f32⟩
  | .hbm, ⟨10, _⟩ => ⟨S16384x133x1, .f32⟩
  | .hbm, ⟨11, _⟩ => ⟨S16384x133, .f32⟩
  | .hbm, ⟨12, _⟩ => ⟨S16384x133x2, .f32⟩
  | .hbm, ⟨13, _⟩ => ⟨S16384x133x1, .f32⟩
  | .hbm, ⟨14, _⟩ => ⟨S16384x133, .f32⟩
  | .hbm, ⟨15, _⟩ => ⟨S_, .f32⟩
  | .hbm, ⟨16, _⟩ => ⟨S16384x133, .f32⟩
  | .hbm, ⟨17, _⟩ => ⟨S16384x133, .i1⟩
  | .hbm, ⟨18, _⟩ => ⟨S16384x133, .f32⟩
  | .hbm, ⟨19, _⟩ => ⟨S_, .f32⟩
  | .hbm, ⟨20, _⟩ => ⟨S16384x133, .f32⟩
  | .hbm, ⟨21, _⟩ => ⟨S16384x133, .f32⟩
  | .hbm, ⟨22, _⟩ => ⟨S16384x133, .f32⟩
  | .hbm, ⟨23, _⟩ => ⟨S16384x133, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384x133x2, .f32⟩
  | .hbm, ⟨28, _⟩ => ⟨S16384x133x1, .f32⟩
  | .hbm, ⟨29, _⟩ => ⟨S16384x133, .f32⟩
  | .hbm, ⟨30, _⟩ => ⟨S16384x133x1, .f32⟩
  | .hbm, ⟨31, _⟩ => ⟨S16384x133, .f32⟩
  | .hbm, ⟨32, _⟩ => ⟨S16384x133, .f32⟩
  | .hbm, ⟨33, _⟩ => ⟨S16384x133, .f32⟩
  | .hbm, ⟨34, _⟩ => ⟨S16384x133, .f32⟩
  | .hbm, ⟨35, _⟩ => ⟨S16384x133, .f32⟩
  | .hbm, ⟨36, _⟩ => ⟨S16384x133, .f32⟩
  | .hbm, ⟨37, _⟩ => ⟨S_, .f32⟩
  | .hbm, ⟨38, _⟩ => ⟨S16384x133, .f32⟩
  | .hbm, ⟨39, _⟩ => ⟨S16384x133, .f32⟩
  | .hbm, ⟨40, _⟩ => ⟨S16384x133, .f32⟩
  | .hbm, ⟨41, _⟩ => ⟨S16384x133, .f32⟩
  | .hbm, ⟨42, _⟩ => ⟨S16384x133, .f32⟩
  | .hbm, ⟨43, _⟩ => ⟨S16384x133, .f32⟩
  | .hbm, ⟨44, _⟩ => ⟨S16384x133, .f32⟩
  | .hbm, ⟨45, _⟩ => ⟨S16384x133, .f32⟩
  | .hbm, ⟨46, _⟩ => ⟨S16384x133, .f32⟩
  | .hbm, ⟨47, _⟩ => ⟨S16384x133, .f32⟩
  | .hbm, ⟨48, _⟩ => ⟨S16384x133, .f32⟩
  | .hbm, ⟨49, _⟩ => ⟨S16384x133, .f32⟩
  | .hbm, ⟨50, _⟩ => ⟨S16384x133, .f32⟩
  | .hbm, ⟨51, _⟩ => ⟨S_, .f32⟩
  | .hbm, ⟨52, _⟩ => ⟨S16384x133, .f32⟩
  | .hbm, ⟨53, _⟩ => ⟨S16384x133, .f32⟩
  | .hbm, ⟨54, _⟩ => ⟨S_, .f32⟩
  | .hbm, ⟨55, _⟩ => ⟨S16384x133, .f32⟩
  | .hbm, ⟨56, _⟩ => ⟨S16384x133, .f32⟩
  | .hbm, ⟨57, _⟩ => ⟨S_, .f32⟩
  | .hbm, ⟨58, _⟩ => ⟨S16384, .f32⟩
  | .hbm, ⟨59, _⟩ => ⟨S16384, .f32⟩
  | .hbm, ⟨60, _⟩ => ⟨S_, .f32⟩
  | .hbm, ⟨61, _⟩ => ⟨S16384, .f32⟩
  | .hbm, ⟨62, _⟩ => ⟨S16384, .f32⟩
  | _, _ => ⟨S16384x133x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]

class Facts₀ : Prop where
  slices_S16384x133x6_S16384x133x2_0_0_0 : S16384x133x6.Slices ![0, 0, 0] S16384x133x2
  slices_S16384x133x6_S16384x133x1_0_0_2 : S16384x133x6.Slices ![0, 0, 2] S16384x133x1
  shapeCasts_S16384x133x1_S16384x133 : S16384x133x1.ShapeCasts S16384x133
  slices_S16384x133x6_S16384x133x1_0_0_3 : S16384x133x6.Slices ![0, 0, 3] S16384x133x1
  slices_S16384x133x6_S16384x133x1_0_0_4 : S16384x133x6.Slices ![0, 0, 4] S16384x133x1
  slices_S16384x133x6_S16384x133x1_0_0_5 : S16384x133x6.Slices ![0, 0, 5] S16384x133x1
  slices_S16384x133x3_S16384x133x2_0_0_0 : S16384x133x3.Slices ![0, 0, 0] S16384x133x2
  slices_S16384x133x3_S16384x133x1_0_0_2 : S16384x133x3.Slices ![0, 0, 2] S16384x133x1
  bcast_S_S16384x133 : S_.BroadcastsInDim S16384x133 (![] : Fin 0 → Fin S16384x133.rank)
  reducesTo_S16384x133_S16384_d1 : S16384x133.ReducesTo [1] S16384
  h_S_ : 0 < S_.numel
  slices_S16384x133x2_S16384x133x1_0_0_0 : S16384x133x2.Slices ![0, 0, 0] S16384x133x1
  slices_S16384x133x2_S16384x133x1_0_0_1 : S16384x133x2.Slices ![0, 0, 1] S16384x133x1
  bcast_S_S16384 : S_.BroadcastsInDim S16384 (![] : Fin 0 → Fin S16384.rank)

variable [Facts₀]

class Facts : Prop extends Facts₀ where

variable [Facts]
-- ==== Proof.LibRecordFields.lean ====
/-
  Arrays of records. An array of shape [a, b, w] holds at each position (p, q) a record of w numbers.

  * Field c of every record — a unit-width slice on the last axis, then the cast that drops that axis — is the
    [a, b] matrix whose entry (p, q) is the array's entry (p, q, c): `field_apply`.
  * The first v fields of every record — a slice at offset zero on the last axis — form the [a, b, v] array with the
    same entries: `prefix_apply`.
  * Summing an [a, b] matrix of extended reals along its second axis, row p receives the sum of that row's b entries;
    this is what a vector reduction (`rowSum_vector`) and a host reduction with an initial value
    (`rowSum_host`) both compute on the extended reals.
-/
import Idealize.ShloMosaic.Lib.ValueIdx
import Idealize.ShloMosaic.Lib.Pipeline.Value
import Idealize.ShloMosaic.PureOps.Ideal.Laws

noncomputable section

namespace Cert.Lib.RecordFields

open Idealize.ShloMosaic Idealize.ShloMosaic.ValueIdx

variable {α : Type} {a b w : Nat}

/-- Field `c` of an [a, b, w] array of records, taken as an [a, b] matrix, holds at (p, q) the array's entry
    (p, q, c). -/
theorem field_apply (c : Nat) (hc : c < w) (x : (⟨3, ![a, b, w]⟩ : Shape).Idx → α)
    (hs : (⟨3, ![a, b, w]⟩ : Shape).Slices ![0, 0, c] ⟨3, ![a, b, 1]⟩)
    (hr : (⟨3, ![a, b, 1]⟩ : Shape).ShapeCasts ⟨2, ![a, b]⟩) (p : Fin a) (q : Fin b) :
    shapeCast ⟨2, ![a, b]⟩ (extractStridedSlice ⟨3, ![a, b, 1]⟩ ![0, 0, c] x hs) hr (ix2 p q)
      = x (ix3 p q ⟨c, hc⟩) := by
  refine (shapeCast_apply _ hr (ix2 p q) (ix3 p q (⟨0, Nat.one_pos⟩ : Fin 1)) ?_).trans ?_
  · rw [Shape.rowMajor_val_three, Shape.rowMajor_val_two]
    show (p.val * b + q.val) * 1 + 0 = p.val * b + q.val
    omega
  · refine extractStridedSlice_apply _ x hs _ _ fun d => ?_
    match d with
    | ⟨0, _⟩ => show p.val = 0 + p.val; omega
    | ⟨1, _⟩ => show q.val = 0 + q.val; omega
    | ⟨2, _⟩ => show c = c + 0; omega

/-- The first `v` fields of an [a, b, w] array of records: entry (p, q, e) is the array's entry (p, q, e). -/
theorem prefix_apply {v : Nat} (x : (⟨3, ![a, b, w]⟩ : Shape).Idx → α)
    (hs : (⟨3, ![a, b, w]⟩ : Shape).Slices ![0, 0, 0] ⟨3, ![a, b, v]⟩) (p : Fin a) (q : Fin b) (e : Fin v)
    (he : e.val < w) :
    extractStridedSlice ⟨3, ![a, b, v]⟩ ![0, 0, 0] x hs (ix3 p q e) = x (ix3 p q ⟨e.val, he⟩) := by
  refine extractStridedSlice_apply _ x hs _ _ fun d => ?_
  match d with
  | ⟨0, _⟩ => show p.val = 0 + p.val; omega
  | ⟨1, _⟩ => show q.val = 0 + q.val; omega
  | ⟨2, _⟩ => show e.val = 0 + e.val; omega

/-- A vector reduction by addition along the second axis of an [a, b] matrix of extended reals, started from the
    zero word: row p receives the sum of the matrix's entries (p, k). -/
theorem rowSum_vector (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  match d with
  | ⟨0, _⟩ => rfl
  | ⟨1, _⟩ => rfl

/-- The host's reduction by addition along the second axis of an [a, b] matrix of extended reals: row p receives the
    initial value plus the sum of the matrix's entries (p, k). -/
theorem rowSum_host (x : (⟨2, ![a, b]⟩ : Shape).Idx → EReal) (h' : (⟨2, ![a, b]⟩ : Shape).ReducesTo [1] ⟨1, ![a]⟩)
    (h : (⟨2, ![a, b]⟩ : Shape).Reduces [1] ⟨1, ![a]⟩) (init : EReal) (p : Fin a) :
    Ideal.hostReduceAdd h' x init (ix1 p) = init + ∑ k : Fin b, x (ix2 p k) := by
  refine (Ideal.hostReduceAdd_single h' h x init (ix1 p)).trans ?_
  refine congrArg (init + ·) (Finset.sum_congr rfl fun k _ => congrArg x ?_)
  funext d
  match d with
  | ⟨0, _⟩ => rfl
  | ⟨1, _⟩ => rfl

end Cert.Lib.RecordFields

end
-- ==== Proof.KeypointLoss.lean ====
/-
  The loss of one sample, on the extended reals.

  A sample has 133 keypoints. For keypoint k the prediction is a record of six numbers — a mean (mx, my), the three
  entries (a, b, c) of a symmetric 2×2 covariance [[a, c], [c, b]], and a probability p that the keypoint is labelled —
  and the target a record of three: a position (gx, gy) and a visibility flag v. A keypoint counts as seen when v ≠ 0.

  * its label term is log p when it is seen and log (1 − p) when it is not;
  * with dx = gx − mx, dy = gy − my and det = a·b − c·c, its Gaussian term is
      [seen] · (log det + (b·dx·dx − 2·c·dx·dy + a·dy·dy) / det) · ½ + log 2π,
    where [seen] is 1 or 0, the quotient is the extended reals' division and log 2π is the single-precision literal
    both programs spell.

  The sample's loss is the sum of its Gaussian terms minus the sum of its label terms (`rowLoss`). The two programs reach
  that difference by two routes — one adds zero minus the label sum, the other starts both sums from zero, adds the
  negated label sum and multiplies by one — and each route is the difference itself: `add_zero_sub`,
  `neg_route`. Neither needs the terms to be finite: only that zero is neutral for addition, one for
  multiplication, and that subtracting is adding the negation.
-/
import Idealize.ShloMosaic.PureOps.Ideal
import Idealize.ShloMosaic.PureOps.Ideal.Laws
import Idealize.ShloMosaic.Lib.ValueIdx

noncomputable section

namespace Cert.KeypointLoss

open Idealize.ShloMosaic Idealize.ShloMosaic.ValueIdx

/-! ## One keypoint -/

/-- The visibility flag as a bit: set when the flag differs from zero. -/
def seen (v : EReal) : BitVec 1 := Ideal.cmp .one v (Ideal.ofBits .f32 0x00000000#32)

/-- The label term: log p for a seen keypoint, log (1 − p) for an unseen one. -/
def labelTerm (p v : EReal) : EReal :=
  Scalar.select (seen v) (Ideal.log p) (Ideal.log (Ideal.ofBits .f32 0x3F800000#32 - p))

/-- The weight of a keypoint: 1 when it is seen, 0 when it is not. -/
def weight (v : EReal) : EReal := (((seen v).toNat : ℝ) : EReal)

/-- Log det plus the quadratic form of the inverse covariance at an offset (dx, dy), before division by det is
    distributed: log (a·b − c·c) + (b·dx·dx − 2·c·dx·dy + a·dy·dy) / (a·b − c·c). -/
def quadCore (a b c dx dy : EReal) : EReal :=
  Ideal.log (a * b - c * c)
    + Ideal.div (b * dx * dx - Ideal.ofBits .f32 0x40000000#32 * c * dx * dy + a * dy * dy) (a * b - c * c)

/-- The same at the offset of the target position from the predicted mean. -/
def quadTerm (mx my a b c gx gy : EReal) : EReal := quadCore a b c (gx - mx) (gy - my)

/-- The Gaussian term: the keypoint's weight times `quadTerm`, halved, plus log 2π. -/
def gaussTerm (mx my a b c gx gy v : EReal) : EReal :=
  weight v * quadTerm mx my a b c gx gy * Ideal.ofBits .f32 0x3F000000#32 + Ideal.ofBits .f32 0x3FEB3F8E#32

/-! ## One sample -/

/-- Row `n` of the loss over `A` samples: the sum over the 133 keypoints of the Gaussian terms, minus the sum of the
    label terms. `O` holds the prediction records, `T` the target records. -/
def rowLoss {A : Nat} (O : (⟨3, ![A, 133, 6]⟩ : Shape).Idx → EReal) (T : (⟨3, ![A, 133, 3]⟩ : Shape).Idx → EReal)
    (n : Fin A) : EReal :=
  (∑ k : Fin 133, gaussTerm (O (ix3 n k 0)) (O (ix3 n k 1)) (O (ix3 n k 2)) (O (ix3 n k 3)) (O (ix3 n k 4))
      (T (ix3 n k 0)) (T (ix3 n k 1)) (T (ix3 n k 2)))
    - ∑ k : Fin 133, labelTerm (O (ix3 n k 5)) (T (ix3 n k 2))

/-- The loss of every sample, as a vector of length `A`. -/
def sampleLoss {A : Nat} (O : (⟨3, ![A, 133, 6]⟩ : Shape).Idx → EReal) (T : (⟨3, ![A, 133, 3]⟩ : Shape).Idx → EReal) :
    (⟨1, ![A]⟩ : Shape).Idx → EReal :=
  fun i => rowLoss O T (i 0)

theorem sampleLoss_apply {A : Nat} (O : (⟨3, ![A, 133, 6]⟩ : Shape).Idx → EReal)
    (T : (⟨3, ![A, 133, 3]⟩ : Shape).Idx → EReal) (n : Fin A) : sampleLoss O T (ix1 n) = rowLoss O T n := rfl

/-- A sample's loss reads only that sample's records: two pairs of arrays that agree on the records of sample `n` of
    the one and sample `n'` of the other give those samples the same loss. -/
theorem rowLoss_congr {A B : Nat} (O : (⟨3, ![A, 133, 6]⟩ : Shape).Idx → EReal) (T : (⟨3, ![A, 133, 3]⟩ : Shape).Idx → EReal)
    (O' : (⟨3, ![B, 133, 6]⟩ : Shape).Idx → EReal) (T' : (⟨3, ![B, 133, 3]⟩ : Shape).Idx → EReal) (n : Fin A) (n' : Fin B)
    (hO : ∀ (k : Fin 133) (e : Fin 6), O (ix3 n k e) = O' (ix3 n' k e))
    (hT : ∀ (k : Fin 133) (e : Fin 3), T (ix3 n k e) = T' (ix3 n' k e)) : rowLoss O T n = rowLoss O' T' n' := by
  unfold rowLoss
  simp only [hO, hT]

/-! ## The small differences between the two programs' spellings -/

/-- The unordered comparison "differs from" is the ordered one: the extended reals have no unordered pair. -/
theorem seen_unordered (v : EReal) : Ideal.cmp .une v (Ideal.ofBits .f32 0x00000000#32) = seen v := rfl

/-- A bit widened to 32 bits and read as a signed integer is the bit read as a natural number: 0 or 1. -/
theorem weight_signed (s : BitVec 1) : (((s.setWidth 32).toInt : ℝ) : EReal) = ((s.toNat : ℝ) : EReal) := by
  have h : (s.setWidth 32).toInt = (s.toNat : ℤ) := by
    revert s; decide
  rw [h, Int.cast_natCast]

/-- The single-precision word of 1.0 is the number one. -/
theorem ofBits_one : Ideal.ofBits .f32 0x3F800000#32 = 1 := by
  simp [Ideal.ofBits, Ideal.ieee, -EReal.coe_mul]; norm_num

/-- Adding "zero minus l" is subtracting l. -/
theorem add_zero_sub (s l : EReal) : s + (Ideal.ofBits .f32 0x00000000#32 - l) = s - l := by
  rw [Ideal.ofBits_zero_f32, sub_eq_add_neg, zero_add, ← sub_eq_add_neg]

/-- Both sums started from zero, the label sum negated and added, the result multiplied by one: again s − l. -/
theorem neg_route (s l : EReal) :
    ((Ideal.ofBits .f32 0x00000000#32 + s) + -(Ideal.ofBits .f32 0x00000000#32 + l)) * Ideal.ofBits .f32 0x3F800000#32
      = s - l := by
  rw [Ideal.ofBits_zero_f32, ofBits_one, zero_add, zero_add, mul_one, ← sub_eq_add_neg]

end Cert.KeypointLoss

end
-- ==== Proof.KernelRows.lean ====
/-
  What the kernel body computes from one pair of blocks: 128 samples' prediction records x0 : [128, 133, 6] and target
  records x1 : [128, 133, 3].

  The body cuts the blocks into eight [128, 133] matrices — the covariance entries a, b, c and the probability p (fields
  2 to 5 of the prediction), the visibility flag (field 2 of the target) and the two coordinates of the offset
  target − mean (fields 0 and 1 of the difference of the two leading field pairs) — and works entry by entry on them, so
  at sample n and keypoint k each matrix is one entry of a block (`covA_apply` … `offY_apply`). Entry (n, k) of
  its weighted matrix is the keypoint's weight times its `quadTerm` (`weighted_apply`), entry n of its label vector is
  zero minus the sample's label sum (`labelVec_apply`), and what it stores is the loss of the 128 samples
  (`payload_eq`).
-/
import proofs.«146797_j41815801593982_1_alg».proof.Proof.Gen.KernelIdeal.Skeleton
import proofs.«146797_j41815801593982_1_alg».proof.Proof.LibRecordFields
import proofs.«146797_j41815801593982_1_alg».proof.Proof.KeypointLoss

noncomputable section

namespace Cert.KeypointLoss.KernelRows

open Idealize.ShloMosaic Idealize.ShloMosaic.ValueIdx Cert.KernelIdeal Cert.KernelIdeal.Gen Cert.Lib.RecordFields

variable (x0 : FVec Ideal S128x133x6 .f32) (x1 : FVec Ideal S128x133x3 .f32) (n : Fin 128) (k : Fin 133)

/-! ## The eight matrices at an entry -/

theorem covA_apply : shapeCast S128x133 (extractStridedSlice S128x133x1 ![0, 0, 2] x0 slices_S128x133x6_o0_0_2_S128x133x1)
    shapeCasts_S128x133x1_S128x133 (ix2 n k) = x0 (ix3 n k 2) :=
  field_apply 2 (by omega) x0 _ _ n k

theorem covB_apply : shapeCast S128x133 (extractStridedSlice S128x133x1 ![0, 0, 3] x0 slices_S128x133x6_o0_0_3_S128x133x1)
    shapeCasts_S128x133x1_S128x133 (ix2 n k) = x0 (ix3 n k 3) :=
  field_apply 3 (by omega) x0 _ _ n k

theorem covC_apply : shapeCast S128x133 (extractStridedSlice S128x133x1 ![0, 0, 4] x0 slices_S128x133x6_o0_0_4_S128x133x1)
    shapeCasts_S128x133x1_S128x133 (ix2 n k) = x0 (ix3 n k 4) :=
  field_apply 4 (by omega) x0 _ _ n k

theorem prob_apply : shapeCast S128x133 (extractStridedSlice S128x133x1 ![0, 0, 5] x0 slices_S128x133x6_o0_0_5_S128x133x1)
    shapeCasts_S128x133x1_S128x133 (ix2 n k) = x0 (ix3 n k 5) :=
  field_apply 5 (by omega) x0 _ _ n k

theorem flag_apply : shapeCast S128x133 (extractStridedSlice S128x133x1 ![0, 0, 2] x1 slices_S128x133x3_o0_0_2_S128x133x1)
    shapeCasts_S128x133x1_S128x133 (ix2 n k) = x1 (ix3 n k 2) :=
  field_apply 2 (by omega) x1 _ _ n k

/-- The offset's first coordinate: target x minus mean x. -/
theorem offX_apply : shapeCast S128x133 (extractStridedSlice S128x133x1 ![0, 0, 0]
      (subf (extractStridedSlice S128x133x2 ![0, 0, 0] x1 slices_S128x133x3_o0_0_0_S128x133x2)
        (extractStridedSlice S128x133x2 ![0, 0, 0] x0 slices_S128x133x6_o0_0_0_S128x133x2))
      slices_S128x133x2_o0_0_0_S128x133x1) shapeCasts_S128x133x1_S128x133 (ix2 n k)
    = x1 (ix3 n k 0) - x0 (ix3 n k 0) :=
  (field_apply 0 (by omega) _ _ _ n k).trans
    (congrArg₂ (· - ·) (prefix_apply x1 _ n k (0 : Fin 2) (by decide)) (prefix_apply x0 _ n k (0 : Fin 2) (by decide)))

/-- The offset's second coordinate: target y minus mean y. -/
theorem offY_apply : shapeCast S128x133 (extractStridedSlice S128x133x1 ![0, 0, 1]
      (subf (extractStridedSlice S128x133x2 ![0, 0, 0] x1 slices_S128x133x3_o0_0_0_S128x133x2)
        (extractStridedSlice S128x133x2 ![0, 0, 0] x0 slices_S128x133x6_o0_0_0_S128x133x2))
      slices_S128x133x2_o0_0_1_S128x133x1) shapeCasts_S128x133x1_S128x133 (ix2 n k)
    = x1 (ix3 n k 1) - x0 (ix3 n k 1) :=
  (field_apply 1 (by omega) _ _ _ n k).trans
    (congrArg₂ (· - ·) (prefix_apply x1 _ n k (1 : Fin 2) (by decide)) (prefix_apply x0 _ n k (1 : Fin 2) (by decide)))

/-! ## The body's values at an entry -/

/-- The body's mask bit at (n, k) is the keypoint's "seen" bit. -/
theorem maskBit_apply : k0_pay2 (F := Ideal) x1 (ix2 n k) = seen (x1 (ix3 n k 2)) :=
  congrArg (fun z => Ideal.cmp .one z (Ideal.ofBits .f32 0x00000000#32)) (flag_apply x1 n k)

/-- The body's weighted matrix at (n, k): the keypoint's weight times its quadratic term. -/
theorem weighted_apply : k0_pay4 (F := Ideal) x0 x1 (ix2 n k)
    = weight (x1 (ix3 n k 2)) * quadTerm (x0 (ix3 n k 0)) (x0 (ix3 n k 1)) (x0 (ix3 n k 2)) (x0 (ix3 n k 3))
        (x0 (ix3 n k 4)) (x1 (ix3 n k 0)) (x1 (ix3 n k 1)) := by
  unfold weight quadTerm
  rw [← maskBit_apply x1 n k, ← weight_signed, ← covA_apply x0 n k, ← covB_apply x0 n k, ← covC_apply x0 n k,
    ← offX_apply x0 x1 n k, ← offY_apply x0 x1 n k]
  rfl

/-- The body's label vector at n: zero minus the sum of the sample's label terms. -/
theorem labelVec_apply : k0_pay3 (F := Ideal) x0 x1 (ix1 n)
    = Ideal.ofBits .f32 0x00000000#32 - ∑ k : Fin 133, labelTerm (x0 (ix3 n k 5)) (x1 (ix3 n k 2)) := by
  unfold k0_pay3
  refine congrArg (Ideal.ofBits .f32 0x00000000#32 - ·) ((rowSum_vector _ _ _ _ n).trans ?_)
  refine Finset.sum_congr rfl fun k _ => ?_
  unfold labelTerm
  rw [← maskBit_apply x1 n k, ← prob_apply x0 n k]
  rfl

/-- What the body stores: the loss of the block's 128 samples. -/
theorem payload_eq : k0_pay1 (F := Ideal) (k0_pay3 x0 x1) (k0_pay4 x0 x1) = sampleLoss x0 x1 := by
  funext i
  obtain ⟨n, rfl⟩ : ∃ n : Fin 128, i = ix1 n := ⟨i 0, eq_ix1 i⟩
  rw [sampleLoss_apply]
  unfold k0_pay1 rowLoss
  refine (congrArg₂ (· + ·) ((rowSum_vector _ _ _ _ n).trans ?_) (labelVec_apply x0 x1 n)).trans (add_zero_sub _ _)
  refine Finset.sum_congr rfl fun k _ => ?_
  unfold gaussTerm
  rw [← weighted_apply x0 x1 n k]
  rfl

end Cert.KeypointLoss.KernelRows

end
-- ==== Proof.KernelArray.lean ====
/-
  From blocks to the whole result array.

  The grid has 128 points. Point t fetches samples 128·t … 128·t + 127 of both argument arrays — all 133 keypoints, all
  fields (`block_rows`) — and writes back entries 128·t … 128·t + 127 of the result. A sample's loss reads only that
  sample's records, so what point t writes back is block t of the loss of all 16384 samples (`flushed_eq`); the 128
  blocks tile the result (sample r lies in block r / 128: `covered`), so the array ends holding that loss
  (`final`, `run`).
-/
import proofs.«146797_j41815801593982_1_alg».proof.Proof.Gen.KernelIdeal.Value
import proofs.«146797_j41815801593982_1_alg».proof.Proof.KernelRows
import Idealize.ShloMosaic.Lib.Pipeline.Value
import Idealize.ShloMosaic.Lib.Tactic

noncomputable section

namespace Cert.KeypointLoss.KernelArray

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem hz1 : (![0] : Fin 1 → Nat) = fun _ => 0 := funext fun a => by fin_cases a; rfl
theorem hz3 : (![0, 0, 0] : Fin 3 → Nat) = fun _ => 0 := funext fun a => by fin_cases a <;> rfl

/-- The prediction and target arrays as the region finds them, and the loss of all their samples. -/
abbrev predArr (c : Dev nD) : FVec Ideal S16384x133x6 .f32 := V m c main_arg0
abbrev targArr (c : Dev nD) : FVec Ideal S16384x133x3 .f32 := V m c main_arg1
abbrev lossArr (c : Dev nD) : FVec Ideal S16384 .f32 := sampleLoss (A := 16384) (predArr m c) (targArr m c)

/-- The printed index maps over the grid: at point t every window is at block t along the samples, and the argument
    windows at block 0 along the keypoints and the fields. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 1) = t.val :=
  (by decide +kernel : ∀ t : Fin grid0.N, _)

/-- Point t's prediction block holds samples 128·t … 128·t + 127. -/
theorem predBlock_apply (c : Dev nD) (t : Fin cfg0.N) (n : Fin 128) (k : Fin 133) (e : Fin 6) (r : Fin 16384)
    (hr : r.val = 128 * t.val + n.val) :
    (iblk m c 0 t : Vec Ideal S128x133x6 .f32) (ix3 n k e) = predArr m c (ix3 r k e) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t 0 * 128 + 1 * n.val = r.val; omega
  | ⟨1, _⟩ => show win0_0.index t 1 * 133 + 1 * k.val = k.val; omega
  | ⟨2, _⟩ => show win0_0.index t 2 * 6 + 1 * e.val = e.val; omega

/-- Point t's target block holds samples 128·t … 128·t + 127. -/
theorem targBlock_apply (c : Dev nD) (t : Fin cfg0.N) (n : Fin 128) (k : Fin 133) (e : Fin 3) (r : Fin 16384)
    (hr : r.val = 128 * t.val + n.val) :
    (iblk m c 1 t : Vec Ideal S128x133x3 .f32) (ix3 n k e) = targArr m c (ix3 r k e) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t 0 * 128 + 1 * n.val = r.val; omega
  | ⟨1, _⟩ => show win0_1.index t 1 * 133 + 1 * k.val = k.val; omega
  | ⟨2, _⟩ => show win0_1.index t 2 * 3 + 1 * e.val = e.val; omega

/-- The loss of sample n of point t's blocks is the loss of sample 128·t + n of the arrays. -/
theorem block_rows (c : Dev nD) (t : Fin cfg0.N) (n : Fin 128) (r : Fin 16384) (hr : r.val = 128 * t.val + n.val) :
    rowLoss (A := 128) (iblk m c 0 t : Vec Ideal S128x133x6 .f32) (iblk m c 1 t : Vec Ideal S128x133x3 .f32) n
      = rowLoss (A := 16384) (predArr m c) (targArr m c) r :=
  rowLoss_congr _ _ _ _ n r (fun k e => predBlock_apply m c t n k e r hr) (fun k e => targBlock_apply m c t n k e r hr)

/-- What point t writes back is block t of the loss of all samples. -/
theorem flushed_eq (c : Dev nD) (t : Fin cfg0.N) :
    (dats m 0 c).flushed 2 t = ((cfg0.win 2).blk t).view.read (Elt Ideal) (lossArr m c) := by
  rw [flushed2]
  unfold out0_2
  rw [View.canon_unit_zero hz1]
  simp only [View.ld_unit_zero (S := S128x133x6) hz3, View.ld_unit_zero (S := S128x133x3) hz3]
  rw [KernelRows.payload_eq (iblk m c 0 t) (iblk m c 1 t)]
  have e2 : win0_2.index t (0 : Fin 1) = t.val := (idx_facts t).2.2.2.2.2.2
  funext j
  have hj : (j 0).val < 128 := (j 0).isLt
  have ht : t.val < 128 := lt_of_lt_of_eq t.isLt (show cfg0.N = 128 from N_0)
  refine (block_rows m c t ⟨(j 0).val, hj⟩ ⟨128 * t.val + (j 0).val, by omega⟩ rfl).trans ?_
  show rowLoss (A := 16384) (predArr m c) (targArr m c) _ = rowLoss (A := 16384) (predArr m c) (targArr m c) _
  congr 1
  apply Fin.ext
  show 128 * t.val + (j 0).val = win0_2.index t 0 * 128 + 1 * (j 0).val
  omega

/-- An entry of the result is in point t's block iff it lies in the block's range. -/
theorem mem_blk (t : Fin cfg0.N) (i : S16384.Idx) :
    i ∈ ((cfg0.win 2).blk t).view.set ↔ ∀ a : Fin 1, win0_2.index t a * S128.size a ≤ (i a).val ∧ (i a).val < win0_2.index t a * S128.size a + S128.size a := by
  show i ∈ ((View.whole main_v0).slice (win0_2.rect t)).set ↔ _
  rw [View.set_slice_whole, Rect.mem_set_unit]
  exact Iff.rfl

/-- Every entry of the result is in some point's block: sample r in block r / 128. -/
theorem covered (i : S16384.Idx) : ∃ t : Fin cfg0.N, (cfg0.win 2).flush t = true ∧ i ∈ ((cfg0.win 2).blk t).view.set := by
  have hi : (i 0).val < 16384 := (i 0).isLt
  have hN : cfg0.N = 128 := N_0
  refine ⟨⟨(i 0).val / 128, by rw [hN]; omega⟩, flush0_2 _, ?_⟩
  rw [mem_blk]
  intro a
  have e2 := (idx_facts ⟨(i 0).val / 128, by rw [hN]; omega⟩).2.2.2.2.2.2
  match a with
  | ⟨0, _⟩ =>
    show win0_2.index _ 0 * 128 ≤ (i 0).val ∧ (i 0).val < win0_2.index _ 0 * 128 + 128
    rw [e2]
    show (i 0).val / 128 * 128 ≤ (i 0).val ∧ (i 0).val < (i 0).val / 128 * 128 + 128
    omega

/-- The result array after the run: the loss of all samples. -/
theorem final (c : Dev nD) : (dats m 0 c).arrAt 2 cfg0.N = lossArr m c :=
  (dats m 0 c).arrAt_eq_of_cover 2 (lossArr m c) (fun t _ => flushed_eq m c t) covered

/-- The kernel's run: the result array ends at the loss of all samples of the argument arrays, which end unchanged. -/
theorem run : θ_run defs (onTc (τ := τ) (main (F := Ideal))) ⟨m, fun _ => 0, ρ⟩ fun r => ∀ c : Dev nD,
      r.2.mem ((c : Thread nD τ).loc main_v0)
          = sampleLoss (A := 16384) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KeypointLoss.KernelArray

end
-- ==== Proof.ReferenceRows.lean ====
/-
  What the reference computes from the whole arrays: 16384 samples' prediction records x0 : [16384, 133, 6] and target
  records x1 : [16384, 133, 3].

  It cuts the arrays into the same eight [16384, 133] matrices as the kernel cuts its blocks — the covariance entries,
  the probability, the visibility flag and the two coordinates of target − mean — so at sample n and keypoint k each is
  one entry of an argument (`covA_apply` … `offY_apply`). Its comparison is the unordered "differs from", its weight
  the mask bit read unsigned, its logarithm and quotient the host's: on the extended reals each is what the kernel's is,
  so entry (n, k) of its Gaussian matrix is the keypoint's `gaussTerm` and of its label matrix the keypoint's
  `labelTerm`. It then sums both along the keypoints from zero, negates the label sum, adds, and multiplies by one:
  the loss of every sample (`result_eq`).
-/
import proofs.«146797_j41815801593982_1_alg».proof.Proof.Gen.ReferenceIdeal.Read
import proofs.«146797_j41815801593982_1_alg».proof.Proof.LibRecordFields
import proofs.«146797_j41815801593982_1_alg».proof.Proof.KeypointLoss

noncomputable section

namespace Cert.KeypointLoss.ReferenceRows

open Idealize.ShloMosaic Idealize.ShloMosaic.ValueIdx Cert.ReferenceIdeal Cert.ReferenceIdeal.Gen Cert.ReferenceIdeal.Read
open Cert.Lib.RecordFields

variable (x0 : (⟨S16384x133x6, .f32⟩ : BufTy).Contents (Elt Ideal)) (x1 : (⟨S16384x133x3, .f32⟩ : BufTy).Contents (Elt Ideal))
  (n : Fin 16384) (k : Fin 133)

/-! ## The eight matrices at an entry -/

theorem covA_apply : val_main_v2 (F := Ideal) x0 (ix2 n k) = x0 (ix3 n k 2) := by
  unfold val_main_v2 val_main_v1; exact field_apply 2 (by omega) x0 _ _ n k

theorem covB_apply : val_main_v4 (F := Ideal) x0 (ix2 n k) = x0 (ix3 n k 3) := by
  unfold val_main_v4 val_main_v3; exact field_apply 3 (by omega) x0 _ _ n k

theorem covC_apply : val_main_v6 (F := Ideal) x0 (ix2 n k) = x0 (ix3 n k 4) := by
  unfold val_main_v6 val_main_v5; exact field_apply 4 (by omega) x0 _ _ n k

theorem prob_apply : val_main_v8 (F := Ideal) x0 (ix2 n k) = x0 (ix3 n k 5) := by
  unfold val_main_v8 val_main_v7; exact field_apply 5 (by omega) x0 _ _ n k

theorem flag_apply : val_main_v11 (F := Ideal) x1 (ix2 n k) = x1 (ix3 n k 2) := by
  unfold val_main_v11 val_main_v10; exact field_apply 2 (by omega) x1 _ _ n k

/-- The offset's first coordinate: target x minus mean x. -/
theorem offX_apply : val_main_v23 (F := Ideal) x0 x1 (ix2 n k) = x1 (ix3 n k 0) - x0 (ix3 n k 0) := by
  unfold val_main_v23 val_main_v22
  refine (field_apply 0 (by omega) (val_main_v21 (F := Ideal) x0 x1) _ _ n k).trans ?_
  unfold val_main_v21 val_main_v9 val_main_v0
  exact congrArg₂ (· - ·) (prefix_apply x1 _ n k (0 : Fin 2) (by decide)) (prefix_apply x0 _ n k (0 : Fin 2) (by decide))

/-- The offset's second coordinate: target y minus mean y. -/
theorem offY_apply : val_main_v25 (F := Ideal) x0 x1 (ix2 n k) = x1 (ix3 n k 1) - x0 (ix3 n k 1) := by
  unfold val_main_v25 val_main_v24
  refine (field_apply 1 (by omega) (val_main_v21 (F := Ideal) x0 x1) _ _ n k).trans ?_
  unfold val_main_v21 val_main_v9 val_main_v0
  exact congrArg₂ (· - ·) (prefix_apply x1 _ n k (1 : Fin 2) (by decide)) (prefix_apply x0 _ n k (1 : Fin 2) (by decide))

/-! ## The reference's matrices at an entry -/

/-- The reference's mask bit at (n, k) is the keypoint's "seen" bit. -/
theorem maskBit_apply : val_main_v13 (F := Ideal) x1 (ix2 n k) = seen (x1 (ix3 n k 2)) :=
  (congrArg (fun z => Ideal.cmp .une z (Ideal.ofBits .f32 0x00000000#32)) (flag_apply x1 n k)).trans (seen_unordered _)

/-- The reference's Gaussian matrix at (n, k). -/
theorem gauss_apply : val_main_v47 (F := Ideal) x0 x1 (ix2 n k)
    = gaussTerm (x0 (ix3 n k 0)) (x0 (ix3 n k 1)) (x0 (ix3 n k 2)) (x0 (ix3 n k 3)) (x0 (ix3 n k 4))
        (x1 (ix3 n k 0)) (x1 (ix3 n k 1)) (x1 (ix3 n k 2)) := by
  unfold gaussTerm weight quadTerm
  rw [← maskBit_apply x1 n k, ← covA_apply x0 n k, ← covB_apply x0 n k, ← covC_apply x0 n k,
    ← offX_apply x0 x1 n k, ← offY_apply x0 x1 n k]
  rfl

/-- The reference's label matrix at (n, k). -/
theorem label_apply : val_main_v18 (F := Ideal) x0 x1 (ix2 n k) = labelTerm (x0 (ix3 n k 5)) (x1 (ix3 n k 2)) := by
  unfold labelTerm
  rw [← maskBit_apply x1 n k, ← prob_apply x0 n k]
  rfl

/-! ## The reference's result -/

/-- The reference's result: the loss of every sample. -/
theorem result_eq : val_main_v51 (F := Ideal) x0 x1 = sampleLoss x0 x1 := by
  funext i
  obtain ⟨n, rfl⟩ : ∃ n : Fin 16384, i = ix1 n := ⟨i 0, eq_ix1 i⟩
  rw [sampleLoss_apply]
  unfold rowLoss
  have hg : val_main_v48 (F := Ideal) x0 x1 (ix1 n) = Ideal.ofBits .f32 0x00000000#32
      + ∑ k : Fin 133, gaussTerm (x0 (ix3 n k 0)) (x0 (ix3 n k 1)) (x0 (ix3 n k 2)) (x0 (ix3 n k 3)) (x0 (ix3 n k 4))
          (x1 (ix3 n k 0)) (x1 (ix3 n k 1)) (x1 (ix3 n k 2)) := by
    unfold val_main_v48
    refine (rowSum_host (val_main_v47 (F := Ideal) x0 x1) reducesTo_S16384x133_S16384_d1 (by decide) _ n).trans ?_
    exact congrArg (Ideal.ofBits .f32 0x00000000#32 + ·) (Finset.sum_congr rfl fun k _ => gauss_apply x0 x1 n k)
  have hl : val_main_v19 (F := Ideal) x0 x1 (ix1 n) = Ideal.ofBits .f32 0x00000000#32
      + ∑ k : Fin 133, labelTerm (x0 (ix3 n k 5)) (x1 (ix3 n k 2)) := by
    unfold val_main_v19
    refine (rowSum_host (val_main_v18 (F := Ideal) x0 x1) reducesTo_S16384x133_S16384_d1 (by decide) _ n).trans ?_
    exact congrArg (Ideal.ofBits .f32 0x00000000#32 + ·) (Finset.sum_congr rfl fun k _ => label_apply x0 x1 n k)
  refine Eq.trans ?_ (neg_route _ _)
  rw [← hg, ← hl]
  rfl

end Cert.KeypointLoss.ReferenceRows

end
-- ==== Proof.lean ====
/-
  A keypoint loss over 16384 samples of 133 keypoints each: the kernel against its reference, on the extended reals.

  Each keypoint carries a predicted mean, a symmetric 2×2 covariance [[a, c], [c, b]] and a label probability p, and a
  target position with a visibility flag. Its Gaussian term is [seen]·(log det + (b·dx² − 2·c·dx·dy + a·dy²)/det)·½ + log 2π
  with (dx, dy) the offset of the target from the mean and det = a·b − c·c; its label term is log p when seen and
  log (1 − p) when not. A sample's loss is the sum of its Gaussian terms minus the sum of its label terms
  (Proof/KeypointLoss.lean).

  The kernel works on blocks of 128 samples: from one pair of blocks its body computes the loss of those 128 samples
  (Proof/KernelRows.lean), a sample's loss reads only that sample's records, and the 128 blocks tile the result, so the
  result array ends at the loss of all samples (Proof/KernelArray.lean). The reference computes the same loss from the
  whole arrays in one piece (Proof/ReferenceRows.lean). The two spell a few things differently — an ordered against an
  unordered "differs from", a mask bit read signed after widening against read unsigned, "zero minus" against negation,
  a closing multiplication by one — and on the extended reals each pair is one function. No law used here needs the
  inputs to be finite: the precondition is never opened.
-/
import proofs.«146797_j41815801593982_1_alg».proof.Defs
import proofs.«146797_j41815801593982_1_alg».proof.Proof.Gen.Kernel
import proofs.«146797_j41815801593982_1_alg».proof.Proof.Gen.Kernel.Skeleton
import proofs.«146797_j41815801593982_1_alg».proof.Proof.Gen.Kernel.Launch
import proofs.«146797_j41815801593982_1_alg».proof.Proof.Gen.Kernel.Points
import proofs.«146797_j41815801593982_1_alg».proof.Proof.Gen.Kernel.Frame
import proofs.«146797_j41815801593982_1_alg».proof.Proof.Gen.KernelIdeal
import proofs.«146797_j41815801593982_1_alg».proof.Proof.Gen.KernelIdeal.Skeleton
import proofs.«146797_j41815801593982_1_alg».proof.Proof.Gen.KernelIdeal.Launch
import proofs.«146797_j41815801593982_1_alg».proof.Proof.Gen.KernelIdeal.Points
import proofs.«146797_j41815801593982_1_alg».proof.Proof.Gen.KernelIdeal.Frame
import proofs.«146797_j41815801593982_1_alg».proof.Proof.Gen.ReferenceIdeal
import proofs.«146797_j41815801593982_1_alg».proof.Proof.Gen.Pre_finite_inputs
import proofs.«146797_j41815801593982_1_alg».proof.Proof.Gen.KernelIdeal.Value
import proofs.«146797_j41815801593982_1_alg».proof.Proof.Gen.ReferenceIdeal.Run
import proofs.«146797_j41815801593982_1_alg».proof.Proof.Gen.ReferenceIdeal.Read
import proofs.«146797_j41815801593982_1_alg».proof.Proof.KernelArray
import proofs.«146797_j41815801593982_1_alg».proof.Proof.ReferenceRows
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the loss of all samples of those arguments. -/
theorem algebraic : Cert.algebraic_KernelIdeal_ReferenceIdeal := by
  intro m ρ m' ρ' _ hagree
  refine ⟨_, Cert.KeypointLoss.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.KeypointLoss.ReferenceRows.result_eq, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
